-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1024x1000 : Shape := ⟨2, ![1024, 1000]⟩
abbrev S1024 : Shape := ⟨1, ![1024]⟩
abbrev S_ : Shape := ⟨0, ![]⟩

class Facts : Prop where
  bcast_S_S1024x1000 : S_.BroadcastsInDim S1024x1000 (![] : Fin 0 → Fin S1024x1000.rank)
  reducesTo_S1024x1000_S_d0_1 : S1024x1000.ReducesTo [0, 1] S_
  h_S_ : 0 < S_.numel
  bcast_S_S1024 : S_.BroadcastsInDim S1024 (![] : Fin 0 → Fin S1024.rank)
  reducesTo_S1024_S_d0 : S1024.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S262144 32) (main_arg1 : FVec F S1024x1000 .f32) (main_arg2 : FVec F S1024 .f32) : IVec S_ 1 :=
  let main_v0 : FVec F S1024x1000 .f32 := Host.absf main_arg1
  let main_cst : FVec F S_ .f32 := constant S_ .f32 0x7F800000#32
  let main_v1 : FVec F S1024x1000 .f32 := broadcastInDim S1024x1000 ![] bcast_S_S1024x1000 main_cst
  let main_v2 : IVec S1024x1000 1 := cmpf .olt main_v0 main_v1
  let main_c : IVec S_ 1 := constantI S_ 1 1#1
  let main_v3 : IVec S_ 1 := (fun x v => Host.reduce IntOp.andi x v reducesTo_S1024x1000_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg0 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 1000#32
  let main_v13 : IVec S262144 32 := broadcastInDim S262144 ![] bcast_S_S262144 main_c_4
  let main_v14 : IVec S262144 1 := cmpi .slt main_arg0 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144 : Shape := ⟨1, ![262144]⟩
abbrev S1024x1000 : Shape := ⟨2, ![1024, 1000]⟩
abbrev S1024 : Shape := ⟨1, ![1024]⟩
abbrev S262144x1 : Shape := ⟨2, ![262144, 1]⟩
abbrev S1000x1024 : Shape := ⟨2, ![1000, 1024]⟩
abbrev S1x1024 : Shape := ⟨2, ![1, 1024]⟩
abbrev S262144x1024 : Shape := ⟨2, ![262144, 1024]⟩
abbrev S2048x1 : Shape := ⟨2, ![2048, 1]⟩
abbrev S2048x1024 : Shape := ⟨2, ![2048, 1024]⟩
abbrev S2048x1000 : Shape := ⟨2, ![2048, 1000]⟩

abbrev nBuf : Space → Nat
  | .hbm => 8
  | .vmem => 6
  | .smem => 0
  | _ => 0

abbrev bufTy : (tb : Table) → Fin (tcTables nBuf tb) → BufTy
  | .hbm, ⟨0, _⟩ => ⟨S262144, .i32⟩
  | .hbm, ⟨1, _⟩ => ⟨S1024x1000, .f32⟩
  | .hbm, ⟨2, _⟩ => ⟨S1024, .f32⟩
  | .hbm, ⟨3, _⟩ => ⟨S262144x1, .i32⟩
  | .hbm, ⟨4, _⟩ => ⟨S1000x1024, .f32⟩
  | .hbm, ⟨5, _⟩ => ⟨S1000x1024, .bf16⟩
  | .hbm, ⟨6, _⟩ => ⟨S1x1024, .f32⟩
  | .hbm, ⟨7, _⟩ => ⟨S262144x1024, .f32⟩
  | .local _ .vmem, ⟨0, _⟩ => ⟨S2048x1, .i32⟩
  | .local _ .vmem, ⟨1, _⟩ => ⟨S2048x1, .i32⟩
  | .local _ .vmem, ⟨2, _⟩ => ⟨S1000x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  transposes_S1024x1000_S1000x1024_1_0 : S1024x1000.Transposes [1, 0] S1000x1024
  bitsLt_bf16_f32 : FTy.bits .bf16 < FTy.bits .f32
  shapeCasts_S1024_S1x1024 : S1024.ShapeCasts S1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  natLt_1_32 : 1 < 32
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x1000_S1000x1024_S2048x1024_1_0_0_1_n_n_wf : DotDims.WF S2048x1000 S1000x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .i32 = 32 ∨ (Rect.block (s := S262144x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .bf16 = 32 ∨ (Rect.block (s := S1000x1024) S1000x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S262144x1024.size a
  hwx0_3 : ∀ i : grid0.Coords, EltTy.bits .f32 = 32 ∨ (Rect.block (s := S262144x1024) S2048x1024.size (cc0_transform_3 i) (hinb0_3 i)).WholeWords (EltTy.packing .f32)

variable [Facts₀]

def dot_S2048x1000_S1000x1024_S2048x1024_1_0_0_1_n_n : DotDims S2048x1000 S1000x1024 S2048x1024 where
  lhsContracting := [1]
  rhsContracting := [0]
  lhsNonContracting := [0]
  rhsNonContracting := [1]
  lhsBatch := []
  rhsBatch := []
  wf := dot_S2048x1000_S1000x1024_S2048x1024_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144 : Shape := ⟨1, ![262144]⟩
abbrev S1024x1000 : Shape := ⟨2, ![1024, 1000]⟩
abbrev S1024 : Shape := ⟨1, ![1024]⟩
abbrev S1000x1024 : Shape := ⟨2, ![1000, 1024]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x1024 : Shape := ⟨2, ![262144, 1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S262144, .i32⟩
  | .hbm, ⟨1, _⟩ => ⟨S1024x1000, .f32⟩
  | .hbm, ⟨2, _⟩ => ⟨S1024, .f32⟩
  | .hbm, ⟨3, _⟩ => ⟨S1000x1024, .f32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S262144x1, .i32⟩
  | .hbm, ⟨12, _⟩ => ⟨S1, .i32⟩
  | .hbm, ⟨13, _⟩ => ⟨S_, .i32⟩
  | .hbm, ⟨14, _⟩ => ⟨S262144x1, .i32⟩
  | .hbm, ⟨15, _⟩ => ⟨S262144x1, .i1⟩
  | .hbm, ⟨16, _⟩ => ⟨S1x1, .i32⟩
  | .hbm, ⟨17, _⟩ => ⟨S262144x1, .i32⟩
  | .hbm, ⟨18, _⟩ => ⟨S262144x1, .i1⟩
  | .hbm, ⟨19, _⟩ => ⟨S262144x1, .i1⟩
  | .hbm, ⟨20, _⟩ => ⟨S_, .i1⟩
  | .hbm, ⟨21, _⟩ => ⟨S262144, .i1⟩
  | .hbm, ⟨22, _⟩ => ⟨S262144x1024, .f32⟩
  | .hbm, ⟨23, _⟩ => ⟨S262144x1024, .i1⟩
  | .hbm, ⟨24, _⟩ => ⟨S_, .f32⟩
  | .hbm, ⟨25, _⟩ => ⟨S262144x1024, .f32⟩
  | .hbm, ⟨26, _⟩ => ⟨S262144x1024, .f32⟩
  | .hbm, ⟨27, _⟩ => ⟨S1x1024, .f32⟩
  | .hbm, ⟨28, _⟩ => ⟨S262144x1024, .f32⟩
  | .hbm, ⟨29, _⟩ => ⟨S262144x1024, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S1024x1000_S1000x1024_1_0 : S1024x1000.Transposes [1, 0] S1000x1024
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x1024_0 : S262144.BroadcastsInDim S262144x1024 (![0] : Fin 1 → Fin S262144x1024.rank)
  bcast_S_S262144x1024 : S_.BroadcastsInDim S262144x1024 (![] : Fin 0 → Fin S262144x1024.rank)
  bcast_S1024_S1x1024_1 : S1024.BroadcastsInDim S1x1024 (![1] : Fin 1 → Fin S1x1024.rank)
  bcast_S1x1024_S262144x1024_0_1 : S1x1024.BroadcastsInDim S262144x1024 (![0, 1] : Fin 2 → Fin S262144x1024.rank)
  gather_S1000x1024_S262144x1_S262144x1024_1_0_n_n_0_1_11024_wf : GatherDims.WF S1000x1024 S262144x1 S262144x1024 [1] [0] [] [0] [] 1 ![1, 1024]

variable [Facts₀]

def gather_S1000x1024_S262144x1_S262144x1024_1_0_n_n_0_1_11024 : GatherDims S1000x1024 S262144x1 S262144x1024 where
  offsetDims := [1]
  collapsedSliceDims := [0]
  operandBatchingDims := []
  startIndicesBatchingDims := []
  startIndexMap := [0]
  indexVectorDim := 1
  sliceSizes := ![1, 1024]
  wf := gather_S1000x1024_S262144x1_S262144x1024_1_0_n_n_0_1_11024_wf

class Facts : Prop extends Facts₀ where

variable [Facts]
-- ==== Proof.PreRead.lean ====
/-
  What the precondition says of the timestep words: every one of them lies in `[0, 1000)`, read signed.

  The printed predicate is a conjunction of four `all`s — the two finiteness tests of the float inputs, then
  `all (ts ≥ 0)` and `all (ts < 1000)`. Each `all` is a reduction by `and` to a single bit; a reduction by `and` that is 1
  had a 1 at every element, and the element's bit is the signed comparison of the word with the constant.
-/
import proofs.«416007_j37022618092062_1_alg».proof.Pre_finite_inputs
import proofs.«416007_j37022618092062_1_alg».proof.Proof.Gen.Pre_finite_inputs
import Idealize.ShloMosaic.Lib.ReduceAll
import Idealize.ShloMosaic.Lib.Affine
import Idealize.ShloMosaic.Lib.ValueIdx

noncomputable section

namespace Cert.Embed.PreRead

open Cert.Pre_finite_inputs Idealize.ShloMosaic Idealize.ShloMosaic.ValueIdx

/-- The scalar shape has one index. -/
instance : Subsingleton S_.Idx := ⟨fun a b => funext fun d => d.elim0⟩

/-- THE PRECONDITION AT A BATCH ENTRY: the timestep word is in `[0, 1000)`, signed. -/
theorem ts_range {F : FTy → Type} [FloatOps F] [Facts] (ts : IVec S262144 32) (W : FVec F S1024x1000 .f32)
    (b : FVec F S1024 .f32) (h : fn (F := F) ts W b = fun _ => 1#1) (r : S262144.Idx) :
    0 ≤ (ts r).toInt ∧ (ts r).toInt < 1000 := by
  have e := congrFun h ix0
  unfold fn fn_part1 at e
  simp only [andi] at e
  rw [IntOp.andi_eq_one, IntOp.andi_eq_one] at e
  obtain ⟨⟨-, hge⟩, hlt⟩ := e
  have g := Host.reduce_andi_all _ _ _ _ _ hge r
  have l := Host.reduce_andi_all _ _ _ _ _ hlt r
  simp only [cmpi] at g l
  rw [IntOp.cmpi_sge] at g
  rw [IntOp.cmpi_slt] at l
  exact ⟨g, l⟩

end Cert.Embed.PreRead

end
-- ==== Proof.Spec.lean ====
/-
  The timestep embedding as one function of the argument arrays, and the one arithmetic fact both programs meet.

  For a batch entry `r` with timestep word `t = ts[r]`, the result row is column `t` of the weight matrix plus the bias:
  `out[r, j] = W[j, t] + b[j]`. The row a word selects is written totally (`rowOf`: the word read signed, a negative
  word sent to 0, clipped to 999), so that `G` is a function of every input; on words in `[0, 1000)` it is the word itself.

  The kernel reaches that row by multiplying a one-hot row `[k = t]` (k over the 1000 timesteps) into the transposed
  weights: `∑ k, [k = t] · Wᵀ[k, j]`. A sum with one term `1 · x` and the others `0 · x` is `x` on the extended reals
  whatever the `x`s are, infinite or not (`0 · x = 0` there), so no finiteness is used.
-/
import Idealize.ShloMosaic.PureOps.Ideal
import Idealize.ShloMosaic.Lib.ValueIdx
import Idealize.ShloMosaic.Lib.ValueIdxRank1
import Idealize.ShloMosaic.Lib.Affine
import Idealize.ShloMosaic.Lib.StableHlo.Predicate

noncomputable section

open scoped BigOperators

namespace Cert.Embed

open Idealize.ShloMosaic Idealize.ShloMosaic.ValueIdx

/-- The table row a timestep word selects: the word read signed, negative words sent to row 0, clipped to the last row. -/
def rowOf (w : BitVec 32) : Fin 1000 := ⟨min w.toInt.toNat 999, by omega⟩

/-- A word in `[0, 1000)` signed is its own unsigned value, … -/
theorem toInt_eq_toNat {w : BitVec 32} (h0 : 0 ≤ w.toInt) (h1 : w.toInt < 1000) : w.toInt = (w.toNat : ℤ) := by
  have h32 := w.isLt
  unfold BitVec.toInt at h0 h1 ⊢
  split at h0 <;> omega

/-- … and selects the row of that value. -/
theorem rowOf_val {w : BitVec 32} (h0 : 0 ≤ w.toInt) (h1 : w.toInt < 1000) : (rowOf w).val = w.toNat := by
  have e := toInt_eq_toNat h0 h1
  show min w.toInt.toNat 999 = w.toNat
  omega

/-- The word of the selected row is the timestep word. -/
theorem ofNat_rowOf {w : BitVec 32} (h0 : 0 ≤ w.toInt) (h1 : w.toInt < 1000) : BitVec.ofNat 32 (rowOf w).val = w := by
  rw [rowOf_val h0 h1]
  simp

/-- THE RESULT: row `r`, column `j` holds `W[j, ts[r]] + b[j]`. -/
def G (ts : (⟨1, ![262144]⟩ : Shape).Idx → BitVec 32) (W : (⟨2, ![1024, 1000]⟩ : Shape).Idx → EReal)
    (b : (⟨1, ![1024]⟩ : Shape).Idx → EReal) : (⟨2, ![262144, 1024]⟩ : Shape).Idx → EReal :=
  fun i => W (ix2 (i 1 : Fin 1024) (rowOf (ts (ix1 (i 0 : Fin 262144))))) + b (ix1 (i 1 : Fin 1024))

theorem G_apply (ts : (⟨1, ![262144]⟩ : Shape).Idx → BitVec 32) (W : (⟨2, ![1024, 1000]⟩ : Shape).Idx → EReal)
    (b : (⟨1, ![1024]⟩ : Shape).Idx → EReal) (r : Fin 262144) (j : Fin 1024) :
    G ts W b (ix2 r j) = W (ix2 j (rowOf (ts (ix1 r)))) + b (ix1 j) := rfl

/-- Entry `k` of the one-hot row of a timestep word: the bit `k = w`, widened to a word and read as a number. -/
def hot (w : BitVec 32) (k : Fin 1000) : EReal :=
  ((((IntOp.cmpi .eq (BitVec.ofNat 32 k.val) w).setWidth 32).toInt : ℝ) : EReal)

theorem hot_self {w : BitVec 32} (h0 : 0 ≤ w.toInt) (h1 : w.toInt < 1000) : hot w (rowOf w) = 1 := by
  unfold hot
  rw [StableHlo.Predicate.cmpi_eq_iff.mpr (ofNat_rowOf h0 h1)]
  norm_num

theorem hot_ne {w : BitVec 32} (h0 : 0 ≤ w.toInt) (h1 : w.toInt < 1000) (k : Fin 1000) (hk : k ≠ rowOf w) : hot w k = 0 := by
  unfold hot
  have hne : IntOp.cmpi .eq (BitVec.ofNat 32 k.val) w ≠ 1#1 := fun h => hk (Fin.ext (by
    have e := StableHlo.Predicate.cmpi_eq_iff.mp h
    rw [rowOf_val h0 h1, ← e]
    have := k.isLt
    simp only [BitVec.toNat_ofNat]
    omega))
  rw [eq_zero_of_ne_one hne]
  norm_num

/-- THE ONE-HOT CONTRACTION: against the one-hot row of a word in `[0, 1000)` a sum over the 1000 timesteps keeps the
    term of that word's row, on the extended reals, whatever the other terms' factors are. -/
theorem hot_sum {w : BitVec 32} (h0 : 0 ≤ w.toInt) (h1 : w.toInt < 1000) (f : Fin 1000 → EReal) :
    ∑ k : Fin 1000, hot w k * f k = f (rowOf w) := by
  rw [Finset.sum_eq_single (rowOf w)]
  · rw [hot_self h0 h1, one_mul]
  · intro k _ hk
    rw [hot_ne h0 h1 k hk, zero_mul]
  · intro h
    exact absurd (Finset.mem_univ _) h

end Cert.Embed

end
-- ==== Proof.KernelPay.lean ====
/-
  What the kernel body stores, read at an index.

  At a grid point the body holds a [2048, 1] block of timestep words `x0`, the whole [1000, 1024] transposed weights `x1`
  and the [1, 1024] bias row `x2`, and stores `onehot(x0) · x1 + x2`, where row `p` of the one-hot matrix is the bit
  `k = x0[p]` over the 1000 columns `k`. At entry `(p, q)` the product is the sum over `k` of that bit times `x1[k, q]`
  — the accumulator is the zero splat — and for a word in `[0, 1000)` the sum keeps the one term of the word's row.
-/
import proofs.«416007_j37022618092062_1_alg».proof.Proof.Gen.KernelIdeal.Skeleton
import proofs.«416007_j37022618092062_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Embed

/-! ## The product's operand indices: output entry `(p, q)` and contraction position `k` read `lhs[p, k]` and `rhs[k, q]` -/

theorem lhs_0 (i : S2048x1024.Idx) (c : dot_S2048x1000_S1000x1024_S2048x1024_1_0_0_1_n_n.contr.Idx) :
    (dot_S2048x1000_S1000x1024_S2048x1024_1_0_0_1_n_n.lhsIdx i c 0).val = (i 0).val := by
  unfold DotDims.lhsIdx
  rw [dif_neg (show ¬(0 : Fin S2048x1000.rank) ∈ dot_S2048x1000_S1000x1024_S2048x1024_1_0_0_1_n_n.lhsBatch by decide),
    dif_pos (show (0 : Fin S2048x1000.rank) ∈ dot_S2048x1000_S1000x1024_S2048x1024_1_0_0_1_n_n.lhsNonContracting by decide)]
  rfl

theorem lhs_1 (i : S2048x1024.Idx) (c : dot_S2048x1000_S1000x1024_S2048x1024_1_0_0_1_n_n.contr.Idx) :
    (dot_S2048x1000_S1000x1024_S2048x1024_1_0_0_1_n_n.lhsIdx i c 1).val = (c ⟨0, by decide⟩).val :=
  dot_S2048x1000_S1000x1024_S2048x1024_1_0_0_1_n_n.lhsIdx_val_of_single rfl i c

theorem rhs_0 (i : S2048x1024.Idx) (c : dot_S2048x1000_S1000x1024_S2048x1024_1_0_0_1_n_n.contr.Idx) :
    (dot_S2048x1000_S1000x1024_S2048x1024_1_0_0_1_n_n.rhsIdx i c 0).val = (c ⟨0, by decide⟩).val :=
  dot_S2048x1000_S1000x1024_S2048x1024_1_0_0_1_n_n.rhsIdx_val_of_single rfl i c

theorem rhs_1 (i : S2048x1024.Idx) (c : dot_S2048x1000_S1000x1024_S2048x1024_1_0_0_1_n_n.contr.Idx) :
    (dot_S2048x1000_S1000x1024_S2048x1024_1_0_0_1_n_n.rhsIdx i c 1).val = (i 1).val := by
  unfold DotDims.rhsIdx
  rw [dif_neg (show ¬(1 : Fin S1000x1024.rank) ∈ dot_S2048x1000_S1000x1024_S2048x1024_1_0_0_1_n_n.rhsBatch by decide),
    dif_pos (show (1 : Fin S1000x1024.rank) ∈ dot_S2048x1000_S1000x1024_S2048x1024_1_0_0_1_n_n.rhsNonContracting by decide)]
  rfl

/-- The product into the zero accumulator, at entry `(p, q)`: the sum over the 1000 timesteps. -/
theorem matmul_entry (lhs : FVec Ideal S2048x1000 .bf16) (rhs : FVec Ideal S1000x1024 .bf16) (p : Fin 2048) (q : Fin 1024) :
    FloatOps.matmul dot_S2048x1000_S1000x1024_S2048x1024_1_0_0_1_n_n none lhs rhs (constant S2048x1024 .f32 0x00000000#32) (ix2 p q)
      = ∑ k : Fin 1000, lhs (ix2 p k) * rhs (ix2 k q) := by
  rw [Ideal.matmul_constant_zero_apply, ← Equiv.sum_comp (contrEquiv1 dot_S2048x1000_S1000x1024_S2048x1024_1_0_0_1_n_n 1000 rfl rfl).symm]
  refine Finset.sum_congr rfl fun k _ => ?_
  have hk := contrEquiv1_symm_val dot_S2048x1000_S1000x1024_S2048x1024_1_0_0_1_n_n 1000 rfl rfl k
  have el : dot_S2048x1000_S1000x1024_S2048x1024_1_0_0_1_n_n.lhsIdx (ix2 p q) ((contrEquiv1 dot_S2048x1000_S1000x1024_S2048x1024_1_0_0_1_n_n 1000 rfl rfl).symm k) = ix2 p k := funext fun a => Fin.ext (by
    match a with
    | ⟨0, _⟩ => exact lhs_0 _ _
    | ⟨1, _⟩ => exact (lhs_1 _ _).trans hk)
  have er : dot_S2048x1000_S1000x1024_S2048x1024_1_0_0_1_n_n.rhsIdx (ix2 p q) ((contrEquiv1 dot_S2048x1000_S1000x1024_S2048x1024_1_0_0_1_n_n 1000 rfl rfl).symm k) = ix2 k q := funext fun a => Fin.ext (by
    match a with
    | ⟨0, _⟩ => exact (rhs_0 _ _).trans hk
    | ⟨1, _⟩ => exact rhs_1 _ _)
  rw [el, er]

/-! ## The one-hot matrix and the bias rows, at an entry -/

/-- Entry `(p, k)` of the one-hot matrix is the bit `k = x0[p]` as a number. -/
theorem onehot_entry (x0 : IVec S2048x1 32) (p : Fin 2048) (k : Fin 1000) :
    (truncf .bf16 (sitofp .f32 (extui 32 (cmpi .eq (iota .tc S2048x1000 32 [1] iota_S2048x1000_d1_w32)
        (broadcastTo S2048x1000 x0 broadcasts_S2048x1_S2048x1000)) natLt_1_32))
      bitsLt_bf16_f32 : FVec Ideal S2048x1000 .bf16) (ix2 p k) = hot (x0 (ix2 p 0)) k := by
  show ((((IntOp.cmpi .eq (iota .tc S2048x1000 32 [1] iota_S2048x1000_d1_w32 (ix2 p k))
      (broadcastTo S2048x1000 x0 broadcasts_S2048x1_S2048x1000 (ix2 p k))).setWidth 32).toInt : ℝ) : EReal) = _
  rw [iota_single_apply,
    broadcastTo_apply x0 broadcasts_S2048x1_S2048x1000 (ix2 p k) (ix2 p 0) (fun a => by
      match a with
      | ⟨0, _⟩ => rfl
      | ⟨1, _⟩ => rfl)]
  rfl

/-- The bias row broadcast down the 2048 rows reads, at `(p, q)`, the row at `q`. -/
theorem bias_entry (x2 : FVec Ideal S1x1024 .f32) (p : Fin 2048) (q : Fin 1024) :
    broadcastTo S2048x1024 (shapeCast S1x1024 x2 shapeCasts_S1x1024_S1x1024) broadcasts_S1x1024_S2048x1024 (ix2 p q)
      = x2 (ix2 0 q) := by
  rw [shapeCast_self]
  exact broadcastTo_apply x2 broadcasts_S1x1024_S2048x1024 (ix2 p q) (ix2 0 q) (fun a => by
    match a with
    | ⟨0, _⟩ => rfl
    | ⟨1, _⟩ => rfl)

/-! ## The stored value -/

/-- WHAT THE BODY STORES at `(p, q)`, when the timestep word of row `p` is in `[0, 1000)`: that row of the weights at
    column `q`, plus the bias at `q`. -/
theorem pay_apply (x0 : Vec Ideal S2048x1 .i32) (x1 : Vec Ideal S1000x1024 .bf16) (x2 : Vec Ideal S1x1024 .f32)
    (p : Fin 2048) (q : Fin 1024) (h0 : 0 ≤ (x0 (ix2 p 0)).toInt) (h1 : (x0 (ix2 p 0)).toInt < 1000) :
    k0_pay1 (F := Ideal) x0 x1 x2 (ix2 p q) = x1 (ix2 (rowOf (x0 (ix2 p 0))) q) + x2 (ix2 0 q) := by
  unfold k0_pay1
  show (FloatOps.matmul (F := Ideal) dot_S2048x1000_S1000x1024_S2048x1024_1_0_0_1_n_n none _ (shapeCast S1000x1024 x1 shapeCasts_S1000x1024_S1000x1024)
      (constant (F := Ideal) S2048x1024 .f32 0x00000000#32) (ix2 p q) : EReal)
    + broadcastTo S2048x1024 (shapeCast S1x1024 x2 shapeCasts_S1x1024_S1x1024) broadcasts_S1x1024_S2048x1024 (ix2 p q) = _
  rw [bias_entry, matmul_entry]
  congr 1
  simp only [shapeCast_self]
  rw [← hot_sum h0 h1 fun k => x1 (ix2 k q)]
  exact Finset.sum_congr rfl fun k _ => congrArg (· * x1 (ix2 k q)) (onehot_entry x0 p k)

end Cert.KernelIdeal.Hand

end
-- ==== Proof.KernelValue.lean ====
/-
  The kernel's output array after the run, as the function `G` of the argument arrays, when every timestep word lies
  in `[0, 1000)`.

  Before the region the host lays the timesteps out as a [262144, 1] column, transposes the weights (and changes their
  float format, which is the identity on the extended reals) and lays the bias out as a [1, 1024] row. Grid point `t`
  (128 of them) reads rows `2048 t … 2048 t + 2047` of the column, the whole transposed weights and the whole bias row,
  and writes back rows `2048 t … 2048 t + 2047` of the output. By the body's value at an entry, what point `t` writes back
  is block `t` of `G`; the 128 blocks cover the output's rows, so the array ends holding `G`.
-/
import proofs.«416007_j37022618092062_1_alg».proof.Proof.Gen.KernelIdeal.Value
import proofs.«416007_j37022618092062_1_alg».proof.Proof.KernelPay
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Embed
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The argument arrays, and the arrays the region finds -/

/-- The three argument arrays at their literal types. -/
abbrev tsArr (c : Dev nD) : IVec S262144 32 := m ((c : Thread nD τ).loc main_arg0)
abbrev wArr (c : Dev nD) : FVec Ideal S1024x1000 .f32 := m ((c : Thread nD τ).loc main_arg1)
abbrev bArr (c : Dev nD) : FVec Ideal S1024 .f32 := m ((c : Thread nD τ).loc main_arg2)

/-- The timestep column the region finds: the timesteps, one per row. -/
theorem V_ts (c : Dev nD) :
    (V m c main_v0 : S262144x1.Idx → BitVec 32) = shapeCast S262144x1 (tsArr m c) shapeCasts_S262144_S262144x1 := by
  dsimp only [Gen.V, Gen.hostOps0]
  after_results <;> rfl

/-- The weights the region finds: the transpose (the change of float format is the identity here). -/
theorem V_wt (c : Dev nD) :
    (V m c main_v2 : S1000x1024.Idx → EReal)
      = truncf (F := Ideal) .bf16 (transpose S1000x1024 [1, 0] (wArr m c) transposes_S1024x1000_S1000x1024_1_0) bitsLt_bf16_f32 := by
  dsimp only [Gen.V, Gen.hostOps0]
  after_results <;> rfl

/-- The bias row the region finds. -/
theorem V_b (c : Dev nD) :
    (V m c main_v3 : S1x1024.Idx → EReal) = shapeCast S1x1024 (bArr m c) shapeCasts_S1024_S1x1024 := by
  dsimp only [Gen.V, Gen.hostOps0]
  after_results <;> rfl

theorem V_ts_apply (c : Dev nD) (r : Fin 262144) : V m c main_v0 (ix2 r 0) = tsArr m c (ix1 r) := by
  rw [V_ts]
  exact shapeCast_apply _ _ (ix2 r 0) (ix1 r) (by
    simp only [Shape.rowMajor_val_two, Shape.rowMajor_val_one]
    show r.val = r.val * 1 + 0
    omega)

theorem V_wt_apply (c : Dev nD) (k : Fin 1000) (q : Fin 1024) : V m c main_v2 (ix2 k q) = wArr m c (ix2 q k) := by
  rw [V_wt, truncf_apply, transpose_ix2_apply]

theorem V_b_apply (c : Dev nD) (q : Fin 1024) : V m c main_v3 (ix2 0 q) = bArr m c (ix1 q) := by
  rw [V_b]
  exact shapeCast_apply _ _ (ix2 0 q) (ix1 q) (by
    simp only [Shape.rowMajor_val_two, Shape.rowMajor_val_one]
    show q.val = 0 * 1024 + q.val
    omega)

/-! ## The windows' blocks -/

/-- The printed index maps over the grid: point `t` takes block row `t` of the timestep column and of the output, and
    the one block of the weights and of the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input blocks at a point, at their literal types. -/
abbrev tsBlk (c : Dev nD) (t : Fin cfg0.N) : Vec Ideal S2048x1 .i32 := iblk m c 0 t
abbrev wtBlk (c : Dev nD) (t : Fin cfg0.N) : Vec Ideal S1000x1024 .bf16 := iblk m c 1 t
abbrev bBlk (c : Dev nD) (t : Fin cfg0.N) : Vec Ideal S1x1024 .f32 := iblk m c 2 t

/-- Row `p` of point `t`'s timestep block is timestep `2048 t + p`. -/
theorem tsBlk_apply (c : Dev nD) (t : Fin cfg0.N) (p : Fin 2048) (r : Fin 262144) (hr : r.val = t.val * 2048 + p.val) :
    tsBlk m c t (ix2 p 0) = tsArr m c (ix1 r) := by
  rw [← V_ts_apply]
  show V m c main_v0 (((cfg0.win 0).blk t).view.emb (ix2 p 0)) = V m c main_v0 (ix2 r 0)
  obtain ⟨e0, e1, -⟩ := idx_facts t
  refine congrArg _ (funext fun a => Fin.ext ?_)
  match a with
  | ⟨0, _⟩ => show win0_0.index t (0 : Fin 2) * 2048 + 1 * p.val = r.val; omega
  | ⟨1, _⟩ => show win0_0.index t (1 : Fin 2) * 1 + 1 * 0 = 0; omega

/-- The weights block at any point is the whole transposed weights. -/
theorem wtBlk_apply (c : Dev nD) (t : Fin cfg0.N) (k : Fin 1000) (q : Fin 1024) :
    wtBlk m c t (ix2 k q) = wArr m c (ix2 q k) := by
  rw [← V_wt_apply]
  show V m c main_v2 (((cfg0.win 1).blk t).view.emb (ix2 k q)) = V m c main_v2 (ix2 k q)
  obtain ⟨-, -, e0, e1, -⟩ := idx_facts t
  refine congrArg _ (funext fun a => Fin.ext ?_)
  match a with
  | ⟨0, _⟩ => show win0_1.index t (0 : Fin 2) * 1000 + 1 * k.val = k.val; omega
  | ⟨1, _⟩ => show win0_1.index t (1 : Fin 2) * 1024 + 1 * q.val = q.val; omega

/-- The bias block at any point is the whole bias row. -/
theorem bBlk_apply (c : Dev nD) (t : Fin cfg0.N) (q : Fin 1024) : bBlk m c t (ix2 0 q) = bArr m c (ix1 q) := by
  rw [← V_b_apply]
  show V m c main_v3 (((cfg0.win 2).blk t).view.emb (ix2 0 q)) = V m c main_v3 (ix2 0 q)
  obtain ⟨-, -, -, -, e0, e1, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-! ## What a point writes back, the cover, the array -/

/-- WHAT POINT `t` WRITES BACK is block `t` of `G` of the argument arrays. -/
theorem flushed_eq (c : Dev nD) (hts : ∀ r, 0 ≤ (tsArr m c r).toInt ∧ (tsArr m c r).toInt < 1000) (t : Fin cfg0.N) :
    (dats m 0 c).flushed 3 t = ((cfg0.win 3).blk t).view.read (Elt Ideal) (G (tsArr m c) (wArr m c) (bArr m c)) := by
  rw [flushed3]
  unfold out0_3
  rw [View.canon_unit_zero hz]
  simp only [View.ld_unit_zero (S := S2048x1) hz, View.ld_unit_zero (S := S1000x1024) hz, View.ld_unit_zero (S := S1x1024) hz]
  funext y
  obtain ⟨p, q, rfl⟩ : ∃ (p : Fin 2048) (q : Fin 1024), y = ix2 p q := ⟨y 0, y 1, eq_ix2 y⟩
  obtain ⟨-, -, -, -, -, -, e0, e1⟩ := idx_facts t
  have hp := p.isLt
  have hN : cfg0.N = 128 := N_0
  have ht : t.val < 128 := Nat.lt_of_lt_of_eq t.isLt hN
  let r : Fin 262144 := ⟨t.val * 2048 + p.val, by omega⟩
  have hblk := tsBlk_apply m c t p r rfl
  show k0_pay1 (F := Ideal) (tsBlk m c t) (wtBlk m c t) (bBlk m c t) (ix2 p q)
    = G (tsArr m c) (wArr m c) (bArr m c) (((cfg0.win 3).blk t).view.emb (ix2 p q))
  have hemb : ((cfg0.win 3).blk t).view.emb (ix2 p q) = ix2 r q := funext fun a => Fin.ext (by
    match a with
    | ⟨0, _⟩ => show win0_3.index t (0 : Fin 2) * 2048 + 1 * p.val = t.val * 2048 + p.val; omega
    | ⟨1, _⟩ => show win0_3.index t (1 : Fin 2) * 1024 + 1 * q.val = q.val; omega)
  rw [hemb, G_apply]
  refine (pay_apply (tsBlk m c t) (wtBlk m c t) (bBlk m c t) p q (by rw [hblk]; exact (hts _).1) (by rw [hblk]; exact (hts _).2)).trans ?_
  rw [hblk, wtBlk_apply, bBlk_apply]

/-- An index of the output is in point `t`'s block iff each coordinate is in the block's range on its axis. -/
theorem mem_blk (t : Fin cfg0.N) (i : S262144x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v4).slice (win0_3.rect t)).set ↔ _
  rw [View.set_slice_whole, Rect.mem_set_unit]
  exact Iff.rfl

/-- Every output entry lies in the block of the point its row falls in. -/
theorem cover (i : S262144x1024.Idx) : ∃ t : Fin cfg0.N, (cfg0.win 3).flush t = true ∧ i ∈ ((cfg0.win 3).blk t).view.set := by
  have hi0 : (i 0).val < 262144 := (i 0).isLt
  have hi1 : (i 1).val < 1024 := (i 1).isLt
  have hN : cfg0.N = 128 := N_0
  let t : Fin cfg0.N := ⟨(i 0).val / 2048, by omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE OUTPUT ARRAY after the run is `G` of the argument arrays. -/
theorem final (c : Dev nD) (hts : ∀ r, 0 ≤ (tsArr m c r).toInt ∧ (tsArr m c r).toInt < 1000) :
    (dats m 0 c).arrAt 3 cfg0.N = G (tsArr m c) (wArr m c) (bArr m c) :=
  (dats m 0 c).arrAt_eq_of_cover 3 (G (tsArr m c) (wArr m c) (bArr m c)) (fun t _ => flushed_eq m c hts t) cover

/-- THE RUN: every weakly fair execution terminates with the output at `G` of the arguments, the arguments unchanged. -/
theorem run (hts : ∀ c r, 0 ≤ (tsArr m c r).toInt ∧ (tsArr m c r).toInt < 1000) :
    θ_run defs (onTc (τ := τ) (main (F := Ideal))) ⟨m, fun _ => 0, ρ⟩ fun r => ∀ c : Dev nD,
      r.2.mem ((c : Thread nD τ).loc main_v4) = G (tsArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hts c)), (h c).2⟩) (run_blocks m ρ)

end Cert.KernelIdeal.Hand

end
-- ==== Proof.RefRun.lean ====
/-
  The reference's @main as one straight line of host operations, and its run read back.

  @main transposes the weights, calls the row lookup (which itself calls a select), and adds the broadcast bias.
  With the two callees' operations written out at their call sites over the call's own buffers, @main is a sequence of
  twenty-eight operations; every weakly fair execution of such a sequence terminates with each buffer at the
  operations' composed value of the launch contents. The result buffer's composed value is `refOut`:

    idx  = where(ts < 0, ts + 1000, ts)           as a [B, 1] column
    ok   = all over the column's one entry of (idx ≥ 0 and idx ≤ 999)
    out  = where(ok, gather(Wᵀ, idx), NaN) + b     (b broadcast down the rows)
-/
import proofs.«416007_j37022618092062_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The start-index column the lookup gathers at: a negative timestep word moved up by the table's length. -/
def startIdx (ts : IVec S262144 32) : IVec S262144x1 32 :=
  broadcastInDim S262144x1 ![0] bcast_S262144_S262144x1_0
    (select (cmpi .slt ts (broadcastInDim S262144 ![] bcast_S_S262144 (constantI S_ 32 0#32)))
      (addi ts (broadcastInDim S262144 ![] bcast_S_S262144 (constantI S_ 32 1000#32))) ts)

/-- Per batch entry, whether its start index lies in `[0, 999]`. -/
def inRange (ts : IVec S262144 32) : IVec S262144 1 :=
  Host.reduce IntOp.andi
    (andi (cmpi .sge (startIdx ts) (broadcastInDim S262144x1 ![] bcast_S_S262144x1 (constantI S_ 32 0#32)))
      (cmpi .sle (startIdx ts) (broadcastInDim S262144x1 ![0, 1] bcast_S1x1_S262144x1_0_1
        (broadcastInDim S1x1 ![1] bcast_S1_S1x1_1 (constantI S1 32 999#32)))))
    (constantI S_ 1 1#1) reducesTo_S262144x1_S262144_d1 h_S_

/-- The reference's result as one term of its three arguments. -/
def refOut (ts : IVec S262144 32) (W : FVec F S1024x1000 .f32) (b : FVec F S1024 .f32) : FVec F S262144x1024 .f32 :=
  addf
    (select (broadcastInDim S262144x1024 ![0] bcast_S262144_S262144x1024_0 (inRange ts))
      (Host.gather gather_S1000x1024_S262144x1_S262144x1024_1_0_n_n_0_1_11024
        (transpose S1000x1024 [1, 0] W transposes_S1024x1000_S1000x1024_1_0) (startIdx ts))
      (broadcastInDim S262144x1024 ![] bcast_S_S262144x1024 (constant S_ .f32 0x7FC00000#32)))
    (broadcastInDim S262144x1024 ![0, 1] bcast_S1x1024_S262144x1024_0_1
      (broadcastInDim S1x1024 ![1] bcast_S1024_S1x1024_1 b))

/-- @main's operations in order, the lookup's and the select's written out at their calls over the calls' buffers. -/
abbrev ops : List (HloOp τ sig (Elt F)) :=
  [ unary main_arg1 main_v0 ((transpose S1000x1024 [1, 0] · transposes_S1024x1000_S1000x1024_1_0) : (⟨S1024x1000, .f32⟩ : BufTy).Contents (Elt F) → (⟨S1000x1024, .f32⟩ : BufTy).Contents (Elt F)),
    TRef.nullary main_call0.c (constantI S_ 32 0#32),
    TRef.unary main_call0.c main_call0.v0 (broadcastInDim S262144 ![] bcast_S_S262144),
    TRef.binary (.of main_arg0) main_call0.v0 main_call0.v1 (cmpi .slt),
    TRef.nullary main_call0.c_0 (constantI S_ 32 1000#32),
    TRef.unary main_call0.c_0 main_call0.v2 (broadcastInDim S262144 ![] bcast_S_S262144),
    TRef.binary (.of main_arg0) main_call0.v2 main_call0.v3 addi,
    TRef.ternary main_call0.v1 main_call0.v3 (.of main_arg0) main_call0.call0.v0 select,
    TRef.unary main_call0.call0.v0 main_call0.v5 (broadcastInDim S262144x1 ![0] bcast_S262144_S262144x1_0),
    TRef.nullary main_call0.c_1 (constantI S1 32 999#32),
    TRef.nullary main_call0.c_2 (constantI S_ 32 0#32),
    TRef.unary main_call0.c_2 main_call0.v6 (broadcastInDim S262144x1 ![] bcast_S_S262144x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S262144x1 ![0, 1] bcast_S1x1_S262144x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S262144x1_S262144_d1 h_S_),
    TRef.binary (.of main_v0) main_call0.v5 main_call0.v13 (fun x i => Host.gather gather_S1000x1024_S262144x1_S262144x1024_1_0_n_n_0_1_11024 x i),
    TRef.unary main_call0.v12 main_call0.v14 (broadcastInDim S262144x1024 ![0] bcast_S262144_S262144x1024_0),
    TRef.nullary main_call0.cst (constant S_ .f32 0x7FC00000#32),
    TRef.unary main_call0.cst main_call0.v15 (broadcastInDim S262144x1024 ![] bcast_S_S262144x1024),
    TRef.ternary main_call0.v14 main_call0.v13 main_call0.v15 main_call0.v16 select,
    unary main_arg2 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S262144x1024 ![0, 1] bcast_S1x1024_S262144x1024_0_1 : (⟨S1x1024, .f32⟩ : BufTy).Contents (Elt F) → (⟨S262144x1024, .f32⟩ : BufTy).Contents (Elt F)),
    binary main_v1 main_v3 main_v4 (addf : (⟨S262144x1024, .f32⟩ : BufTy).Contents (Elt F) → (⟨S262144x1024, .f32⟩ : BufTy).Contents (Elt F) → (⟨S262144x1024, .f32⟩ : BufTy).Contents (Elt F)) ]

set_option maxRecDepth 1024 in
/-- @main is that straight line: the two callees unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

set_option maxRecDepth 8192 in
set_option maxHeartbeats 400000 in
/-- The fold of the operations at the result buffer is `refOut` of the argument buffers' contents: each operation
    writes its own buffer and reads buffers written before it, so the fold unrolls to the composed term. The reduction and
    the gather are kept closed meanwhile: the equation never looks inside them. -/
theorem out_eq (V : Valuation τ sig (Elt F)) :
    after ops V (main_v4 : DevRef τ sig)
      = refOut (F := F) (V (main_arg0 : DevRef τ sig)) (V (main_arg1 : DevRef τ sig)) (V (main_arg2 : DevRef τ sig)) := by
  after_results_simp
  simp only [TRef.ofBuf, TRef.toBuf, cast_eq]
  rfl

/-- No operation writes an argument buffer. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- On the one device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Hand

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.RefValue.lean ====
/-
  The reference's result, entry by entry, when every timestep word lies in `[0, 1000)`.

  For such a word the lookup's wrap-around leaves it alone (it is not negative), the range test passes (so the select
  keeps the gathered row, not the fill value), and the gather reads row `t` of the transposed weights, that is column
  `t` of the weights. Adding the bias broadcast down the rows gives `W[j, t] + b[j]` at entry `(r, j)`: the function `G`.
-/
import proofs.«416007_j37022618092062_1_alg».proof.Proof.RefRun
import proofs.«416007_j37022618092062_1_alg».proof.Proof.Spec
import proofs.«416007_j37022618092062_1_alg».proof.Proof.LibGS
import Idealize.ShloMosaic.Lib.Pipeline.Value
import Idealize.ShloMosaic.Lib.ValueLayout
import Idealize.ShloMosaic.Lib.ValueIdx
import Idealize.ShloMosaic.Lib.Affine
import Idealize.ShloMosaic.PureOps.Reduce

noncomputable section

namespace Cert.ReferenceIdeal.Hand

open Cert.ReferenceIdeal Cert.ReferenceIdeal.Gen Idealize.ShloMosaic Idealize.ShloMosaic.ValueIdx Cert.Embed

variable (ts : IVec S262144 32)

/-- A fold by `and` from 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 by decide]
    exact foldl_andi_ones f l fun n hn => h n (List.mem_cons_of_mem _ hn)

/-- A nonnegative timestep word is its own start index. -/
theorem startIdx_apply (r : Fin 262144) (h0 : 0 ≤ (ts (ix1 r)).toInt) : startIdx ts (ix2 r 0) = ts (ix1 r) := by
  unfold startIdx
  refine (broadcastInDim_apply ![0] bcast_S262144_S262144x1_0 _ (ix2 r 0) (ix1 r) (fun a => by
    match a with
    | ⟨0, _⟩ => rfl)).trans ?_
  rw [select_apply]
  have hc : cmpi .slt ts (broadcastInDim S262144 ![] bcast_S_S262144 (constantI S_ 32 0#32)) (ix1 r) ≠ 1#1 := by
    intro h
    have hlt := IntOp.cmpi_slt.mp h
    have e0 : ((broadcastInDim S262144 ![] bcast_S_S262144 (constantI S_ 32 0#32)) (ix1 r)).toInt = 0 := rfl
    omega
  rw [eq_zero_of_ne_one hc, select_zero]

/-- With every word in `[0, 1000)` every start index passes the lookup's range test. -/
theorem inRange_apply (hts : ∀ r, 0 ≤ (ts r).toInt ∧ (ts r).toInt < 1000) (j : S262144.Idx) : inRange ts j = 1#1 := by
  unfold inRange
  rw [Host.reduce_eq_foldl]
  refine foldl_andi_ones _ _ fun i _ => ?_
  obtain ⟨r, z, rfl⟩ : ∃ (r : Fin 262144) (z : Fin 1), i = ix2 r z := ⟨i 0, i 1, eq_ix2 i⟩
  obtain rfl : z = 0 := Subsingleton.elim _ _
  show IntOp.andi (IntOp.cmpi .sge (startIdx ts (ix2 r 0)) _) (IntOp.cmpi .sle (startIdx ts (ix2 r 0)) _) = 1#1
  rw [IntOp.andi_eq_one, IntOp.cmpi_sge, IntOp.cmpi_sle, startIdx_apply ts r (hts _).1]
  have ez : (broadcastInDim S262144x1 ![] bcast_S_S262144x1 (constantI S_ 32 0#32) (ix2 r 0)).toInt = 0 := rfl
  have en : (broadcastInDim S262144x1 ![0, 1] bcast_S1x1_S262144x1_0_1
      (broadcastInDim S1x1 ![1] bcast_S1_S1x1_1 (constantI S1 32 999#32)) (ix2 r 0)).toInt = 999 := rfl
  rw [ez, en]
  have := hts (ix1 r)
  omega

/-- The lookup's gather at `(r, j)`, for a nonnegative word: the table's entry at the word's row and column `j`. -/
theorem gather_apply {α : Type} (x : S1000x1024.Idx → α) (r : Fin 262144) (j : Fin 1024) (h0 : 0 ≤ (ts (ix1 r)).toInt) :
    Host.gather gather_S1000x1024_S262144x1_S262144x1024_1_0_n_n_0_1_11024 x (startIdx ts) (ix2 r j) = x (ix2 (rowOf (ts (ix1 r))) j) := by
  have hg := Cert.LibGS.gather_rows_apply (N := 1000) (E := 262144) (C := 1024) (by decide)
    gather_S1000x1024_S262144x1_S262144x1024_1_0_n_n_0_1_11024_wf x (startIdx ts) r j
  refine (show Host.gather gather_S1000x1024_S262144x1_S262144x1024_1_0_n_n_0_1_11024 x (startIdx ts) (ix2 r j) = _ from hg).trans
    (congrArg (fun z => x (ix2 z j)) (Fin.ext ?_))
  show min (startIdx ts (ix2 r 0)).toInt.toNat (1000 - 1) = min (ts (ix1 r)).toInt.toNat 999
  rw [startIdx_apply ts r h0]

/-- THE REFERENCE IS `G` when every timestep word lies in `[0, 1000)`. -/
theorem refOut_eq (W : FVec Ideal S1024x1000 .f32) (b : FVec Ideal S1024 .f32)
    (hts : ∀ r, 0 ≤ (ts r).toInt ∧ (ts r).toInt < 1000) :
    refOut (F := Ideal) ts W b = G ts W b := by
  funext i
  obtain ⟨r, j, rfl⟩ : ∃ (r : Fin 262144) (j : Fin 1024), i = ix2 r j := ⟨i 0, i 1, eq_ix2 i⟩
  unfold refOut
  rw [G_apply, addf_apply, select_apply,
    broadcastInDim_apply ![0] bcast_S262144_S262144x1024_0 (inRange ts) (ix2 r j) (ix1 r) (fun a => by
      match a with
      | ⟨0, _⟩ => rfl),
    inRange_apply ts hts, select_one, gather_apply ts _ r j (hts _).1, transpose_ix2_apply,
    broadcastInDim_apply ![0, 1] bcast_S1x1024_S262144x1024_0_1 _ (ix2 r j) (ix2 0 j) (fun a => by
      match a with
      | ⟨0, _⟩ => rfl
      | ⟨1, _⟩ => rfl),
    broadcastInDim_apply ![1] bcast_S1024_S1x1024_1 b (ix2 0 j) (ix1 j) (fun a => by
      match a with
      | ⟨0, _⟩ => rfl)]

end Cert.ReferenceIdeal.Hand

end
-- ==== Proof.lean ====
/-
  A timestep embedding: for each of 262144 batch entries, the column of a [1024, 1000] weight matrix that the entry's
  timestep selects, plus a [1024] bias:  out[r, j] = W[j, ts[r]] + b[j].

  The kernel computes it as a product: a [2048, 1000] one-hot matrix (row p has its 1 at column ts[p]) times the
  transposed weights, 2048 batch entries per grid point, plus the bias row. The reference gathers row ts[r] of the
  transposed weights directly. On the extended reals the product's sum over the 1000 timesteps has one term `1 · x` and
  999 terms `0 · x`, so it is `x` whatever the weights are; the two programs agree exactly when the gather reads the row
  the one-hot marks, which is when the timestep lies in `[0, 1000)`: outside it the reference's lookup wraps a negative
  index around or fills with NaN while the one-hot row is all zeros. The precondition therefore carries, beside the
  finiteness of the float inputs (which this proof does not use), that every timestep is in `[0, 1000)`.

  Both results are shown to be the one function `G` (Proof/Spec.lean) of the argument arrays: the kernel's by its value at
  an entry (Proof/KernelPay.lean) laid over the grid's blocks (Proof/KernelValue.lean), the reference's by its run
  (Proof/RefRun.lean) read at an entry (Proof/RefValue.lean); the precondition is read in Proof/PreRead.lean. The
  idealized kernel is the kernel's own text (no rewrite was applied), so `preserves` asks nothing.
-/
import proofs.«416007_j37022618092062_1_alg».proof.Defs
import proofs.«416007_j37022618092062_1_alg».proof.Proof.Gen.Kernel
import proofs.«416007_j37022618092062_1_alg».proof.Proof.Gen.Kernel.Skeleton
import proofs.«416007_j37022618092062_1_alg».proof.Proof.Gen.Kernel.Launch
import proofs.«416007_j37022618092062_1_alg».proof.Proof.Gen.Kernel.Points
import proofs.«416007_j37022618092062_1_alg».proof.Proof.Gen.Kernel.Frame
import proofs.«416007_j37022618092062_1_alg».proof.Proof.Gen.KernelIdeal
import proofs.«416007_j37022618092062_1_alg».proof.Proof.Gen.KernelIdeal.Skeleton
import proofs.«416007_j37022618092062_1_alg».proof.Proof.Gen.KernelIdeal.Launch
import proofs.«416007_j37022618092062_1_alg».proof.Proof.Gen.KernelIdeal.Points
import proofs.«416007_j37022618092062_1_alg».proof.Proof.Gen.KernelIdeal.Frame
import proofs.«416007_j37022618092062_1_alg».proof.Proof.Gen.KernelIdeal.Value
import proofs.«416007_j37022618092062_1_alg».proof.Proof.Gen.ReferenceIdeal
import proofs.«416007_j37022618092062_1_alg».proof.Proof.Gen.Pre_finite_inputs
import proofs.«416007_j37022618092062_1_alg».proof.Proof.PreRead
import proofs.«416007_j37022618092062_1_alg».proof.Proof.KernelValue
import proofs.«416007_j37022618092062_1_alg».proof.Proof.RefValue
import Idealize.ShloMosaic.Adequacy
import Idealize.ShloMosaic.Init

noncomputable section

namespace Cert.Proof

open Idealize.ShloMosaic Idealize.SL.Sem

/-- The kernel runs and leaves its arguments alone, at the word level and on the extended reals. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- No operation was rewritten when the kernel was idealized. -/
theorem preserves : Cert.preserves_Kernel_KernelIdeal := trivial

/-- From memories that agree on the arguments, with every timestep in `[0, 1000)`, both programs end with the result at
    `G` of the arguments: `W[j, ts[r]] + b[j]` at entry `(r, j)`. -/
theorem algebraic : Cert.algebraic_KernelIdeal_ReferenceIdeal := by
  intro m ρ m' ρ' hpre hagree
  have hts : ∀ c r, 0 ≤ (Cert.KernelIdeal.Hand.tsArr m c r).toInt ∧ (Cert.KernelIdeal.Hand.tsArr m c r).toInt < 1000 :=
    fun c r => Cert.Embed.PreRead.ts_range _ _ _ (hpre c) r
  refine ⟨fun c => Cert.Embed.G (Cert.KernelIdeal.Hand.tsArr m c) (Cert.KernelIdeal.Hand.wArr m c) (Cert.KernelIdeal.Hand.bArr m c),
    Cert.KernelIdeal.Hand.run m ρ hts, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.refOut_eq _ _ _ (hts c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
